-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S256x64 : Shape := ⟨2, ![256, 64]⟩
abbrev S256 : Shape := ⟨1, ![256]⟩
abbrev S256x256 : Shape := ⟨2, ![256, 256]⟩
abbrev S1x256 : Shape := ⟨2, ![1, 256]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x256 .f32) (main_arg9 : FVec F S1 .f32) (main_v33 : IVec S_ 1) : IVec S_ 1 :=
  let main_v34 : FVec F S1x256 .f32 := Host.absf main_arg8
  let main_cst_12 : FVec F S_ .f32 := constant S_ .f32 0x7F800000#32
  let main_v35 : FVec F S1x256 .f32 := broadcastInDim S1x256 ![] bcast_S_S1x256 main_cst_12
  let main_v36 : IVec S1x256 1 := cmpf .olt main_v34 main_v35
  let main_c_13 : IVec S_ 1 := constantI S_ 1 1#1
  let main_v37 : IVec S_ 1 := (fun x v => Host.reduce IntOp.andi x v reducesTo_S1x256_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S256 .f32) (main_arg6 : FVec F S256x256 .f32) (main_arg7 : FVec F S256 .f32) (main_arg8 : FVec F S1x256 .f32) (main_arg9 : FVec F S1 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1200000 32) (main_arg2 : FVec F S64x64 .f32) (main_arg3 : FVec F S64 .f32) (main_arg4 : FVec F S256x64 .f32) (main_arg5 : FVec F S256 .f32) (main_arg6 : FVec F S256x256 .f32) (main_arg7 : FVec F S256 .f32) (main_arg8 : FVec F S1x256 .f32) (main_arg9 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S256x64 : Shape := ⟨2, ![256, 64]⟩
abbrev S256 : Shape := ⟨1, ![256]⟩
abbrev S256x256 : Shape := ⟨2, ![256, 256]⟩
abbrev S1x256 : Shape := ⟨2, ![1, 256]⟩
abbrev S1 : Shape := ⟨1, ![1]⟩
abbrev S1x1200000 : Shape := ⟨2, ![1, 1200000]⟩
abbrev S1200000 : Shape := ⟨1, ![1200000]⟩
abbrev S100000 : Shape := ⟨1, ![100000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩
abbrev S64x256 : Shape := ⟨2, ![64, 256]⟩
abbrev S256x1 : Shape := ⟨2, ![256, 1]⟩
abbrev S256x128 : Shape := ⟨2, ![256, 128]⟩
abbrev S1x1 : Shape := ⟨2, ![1, 1]⟩
abbrev S1x128 : Shape := ⟨2, ![1, 128]⟩
abbrev S100000x128 : Shape := ⟨2, ![100000, 128]⟩
abbrev S2000x64 : Shape := ⟨2, ![2000, 64]⟩
abbrev S2000x128 : Shape := ⟨2, ![2000, 128]⟩
abbrev S2000x256 : Shape := ⟨2, ![2000, 256]⟩
abbrev S100000x1 : Shape := ⟨2, ![100000, 1]⟩

abbrev nBuf : Space → Nat
  | .hbm => 76
  | .vmem => 13
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S256x64, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1x256, .f32⟩
  | .hbm, ⟨9, _⟩ => ⟨S1, .f32⟩
  | .hbm, ⟨10, _⟩ => ⟨S1x1200000, .i32⟩
  | .hbm, ⟨11, _⟩ => ⟨S1200000, .i32⟩
  | .hbm, ⟨12, _⟩ => ⟨S1x1200000, .i32⟩
  | .hbm, ⟨13, _⟩ => ⟨S1200000, .i32⟩
  | .hbm, ⟨14, _⟩ => ⟨S100000, .i32⟩
  | .hbm, ⟨15, _⟩ => ⟨S1300000, .i32⟩
  | .hbm, ⟨16, _⟩ => ⟨S1300000, .i32⟩
  | .hbm, ⟨17, _⟩ => ⟨S64x64, .f32⟩
  | .hbm, ⟨18, _⟩ => ⟨S100000x64, .f32⟩
  | .hbm, ⟨19, _⟩ => ⟨S_, .f32⟩
  | .hbm, ⟨20, _⟩ => ⟨S1300000, .f32⟩
  | .hbm, ⟨21, _⟩ => ⟨S_, .f32⟩
  | .hbm, ⟨22, _⟩ => ⟨S100000, .f32⟩
  | .hbm, ⟨23, _⟩ => ⟨S1300000x1, .i32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1300000, .i32⟩
  | .hbm, ⟨28, _⟩ => ⟨S1300000, .i1⟩
  | .hbm, ⟨29, _⟩ => ⟨S_, .i32⟩
  | .hbm, ⟨30, _⟩ => ⟨S1300000, .i32⟩
  | .hbm, ⟨31, _⟩ => ⟨S1300000, .i32⟩
  | .hbm, ⟨32, _⟩ => ⟨S1300000, .i32⟩
  | .hbm, ⟨33, _⟩ => ⟨S1300000x1, .i32⟩
  | .hbm, ⟨34, _⟩ => ⟨S1300000, .f32⟩
  | .hbm, ⟨35, _⟩ => ⟨S_, .i32⟩
  | .hbm, ⟨36, _⟩ => ⟨S1300000, .i32⟩
  | .hbm, ⟨37, _⟩ => ⟨S1300000, .i1⟩
  | .hbm, ⟨38, _⟩ => ⟨S_, .i32⟩
  | .hbm, ⟨39, _⟩ => ⟨S1300000, .i32⟩
  | .hbm, ⟨40, _⟩ => ⟨S1300000, .i32⟩
  | .hbm, ⟨41, _⟩ => ⟨S1300000, .i32⟩
  | .hbm, ⟨42, _⟩ => ⟨S1300000x1, .i32⟩
  | .hbm, ⟨43, _⟩ => ⟨S1300000, .f32⟩
  | .hbm, ⟨44, _⟩ => ⟨S1300000, .f32⟩
  | .hbm, ⟨45, _⟩ => ⟨S_, .i32⟩
  | .hbm, ⟨46, _⟩ => ⟨S1300000, .i32⟩
  | .hbm, ⟨47, _⟩ => ⟨S1300000, .i1⟩
  | .hbm, ⟨48, _⟩ => ⟨S_, .i32⟩
  | .hbm, ⟨49, _⟩ => ⟨S1300000, .i32⟩
  | .hbm, ⟨50, _⟩ => ⟨S1300000, .i32⟩
  | .hbm, ⟨51, _⟩ => ⟨S1300000, .i32⟩
  | .hbm, ⟨52, _⟩ => ⟨S1300000x1, .i32⟩
  | .hbm, ⟨53, _⟩ => ⟨S1300000x64, .f32⟩
  | .hbm, ⟨54, _⟩ => ⟨S1300000x1, .f32⟩
  | .hbm, ⟨55, _⟩ => ⟨S1300000x64, .f32⟩
  | .hbm, ⟨56, _⟩ => ⟨S1300000x64, .f32⟩
  | .hbm, ⟨57, _⟩ => ⟨S_, .f32⟩
  | .hbm, ⟨58, _⟩ => ⟨S100000x64, .f32⟩
  | .hbm, ⟨59, _⟩ => ⟨S1300000x1, .i32⟩
  | .hbm, ⟨60, _⟩ => ⟨S100000x64, .f32⟩
  | .hbm, ⟨61, _⟩ => ⟨S1x64, .f32⟩
  | .hbm, ⟨62, _⟩ => ⟨S64x256, .f32⟩
  | .hbm, ⟨63, _⟩ => ⟨S1x256, .f32⟩
  | .hbm, ⟨64, _⟩ => ⟨S256x256, .f32⟩
  | .hbm, ⟨65, _⟩ => ⟨S1x256, .f32⟩
  | .hbm, ⟨66, _⟩ => ⟨S256x1, .f32⟩
  | .hbm, ⟨67, _⟩ => ⟨S_, .i32⟩
  | .hbm, ⟨68, _⟩ => ⟨S_, .f32⟩
  | .hbm, ⟨69, _⟩ => ⟨S256x128, .f32⟩
  | .hbm, ⟨70, _⟩ => ⟨S1x1, .f32⟩
  | .hbm, ⟨71, _⟩ => ⟨S_, .i32⟩
  | .hbm, ⟨72, _⟩ => ⟨S_, .f32⟩
  | .hbm, ⟨73, _⟩ => ⟨S1x128, .f32⟩
  | .hbm, ⟨74, _⟩ => ⟨S100000x128, .f32⟩
  | .hbm, ⟨75, _⟩ => ⟨S100000x1, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S1x64, .f32⟩
  | .local _ .vmem, ⟨5, _⟩ => ⟨S64x256, .f32⟩
  | .local _ .vmem, ⟨6, _⟩ => ⟨S1x256, .f32⟩
  | .local _ .vmem, ⟨7, _⟩ => ⟨S256x256, .f32⟩
  | .local _ .vmem, ⟨8, _⟩ => ⟨S1x256, .f32⟩
  | .local _ .vmem, ⟨9, _⟩ => ⟨S256x128, .f32⟩
  | .local _ .vmem, ⟨10, _⟩ => ⟨S1x128, .f32⟩
  | .local _ .vmem, ⟨11, _⟩ => ⟨S2000x128, .f32⟩
  | .local _ .vmem, ⟨12, _⟩ => ⟨S2000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_7 : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_c_8 : Ref sig .tc := ⟨.hbm, 71, rfl⟩
abbrev main_call1_v0 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  concatenates_S1200000_S100000_S1300000_d0 : Shape.Concatenates [S1200000, S100000] S1300000 0
  transposes_S64x64_S64x64_1_0 : S64x64.Transposes [1, 0] S64x64
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  shapeCasts_S64_S1x64 : S64.ShapeCasts S1x64
  transposes_S256x64_S64x256_1_0 : S256x64.Transposes [1, 0] S64x256
  shapeCasts_S256_S1x256 : S256.ShapeCasts S1x256
  transposes_S256x256_S256x256_1_0 : S256x256.Transposes [1, 0] S256x256
  transposes_S1x256_S256x1_1_0 : S1x256.Transposes [1, 0] S256x1
  pads_S256x1_S256x128_000_01270 : S256x1.Pads (![0, 0] : Fin 2 → Nat) ![0, 127] ![0, 0] S256x128
  h_S_ : 0 < S_.numel
  shapeCasts_S1_S1x1 : S1.ShapeCasts S1x1
  pads_S1x1_S1x128_000_01270 : S1x1.Pads (![0, 0] : Fin 2 → Nat) ![0, 127] ![0, 0] S1x128
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S100000x128_S100000x1_0_0 : S100000x128.Slices ![0, 0] S100000x1
  dot_S100000x64_S64x64_S100000x64_1_0_0_1_n_n_wf : DotDims.WF S100000x64 S64x64 S100000x64 [1] [0] [0] [1] [] []
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S2000x64_S64x256_S2000x256_1_0_0_1_n_n_wf : DotDims.WF S2000x64 S64x256 S2000x256 [1] [0] [0] [1] [] []
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S100000x128.size a
  hwx0_9 : ∀ i : grid0.Coords, EltTy.bits .f32 = 32 ∨ (Rect.block (s := S100000x128) S2000x128.size (cc0_transform_9 i) (hinb0_9 i)).WholeWords (EltTy.packing .f32)

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v41) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v42) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v44) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v45) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v46) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v48) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v50) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v51) S2000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S256x64 : Shape := ⟨2, ![256, 64]⟩
abbrev S256 : Shape := ⟨1, ![256]⟩
abbrev S256x256 : Shape := ⟨2, ![256, 256]⟩
abbrev S1x256 : Shape := ⟨2, ![1, 256]⟩
abbrev S1 : Shape := ⟨1, ![1]⟩
abbrev S1x1200000 : Shape := ⟨2, ![1, 1200000]⟩
abbrev S1200000 : Shape := ⟨1, ![1200000]⟩
abbrev S100000 : Shape := ⟨1, ![100000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩
abbrev S64x256 : Shape := ⟨2, ![64, 256]⟩
abbrev S100000x256 : Shape := ⟨2, ![100000, 256]⟩
abbrev S256x1 : Shape := ⟨2, ![256, 1]⟩
abbrev S100000x1 : Shape := ⟨2, ![100000, 1]⟩
abbrev S1x1 : Shape := ⟨2, ![1, 1]⟩

abbrev nBuf : Space → Nat
  | .hbm => 89
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S256x64, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1x256, .f32⟩
  | .hbm, ⟨9, _⟩ => ⟨S1, .f32⟩
  | .hbm, ⟨10, _⟩ => ⟨S1x1200000, .i32⟩
  | .hbm, ⟨11, _⟩ => ⟨S1200000, .i32⟩
  | .hbm, ⟨12, _⟩ => ⟨S1x1200000, .i32⟩
  | .hbm, ⟨13, _⟩ => ⟨S1200000, .i32⟩
  | .hbm, ⟨14, _⟩ => ⟨S100000, .i32⟩
  | .hbm, ⟨15, _⟩ => ⟨S1300000, .i32⟩
  | .hbm, ⟨16, _⟩ => ⟨S1300000, .i32⟩
  | .hbm, ⟨17, _⟩ => ⟨S64x64, .f32⟩
  | .hbm, ⟨18, _⟩ => ⟨S100000x64, .f32⟩
  | .hbm, ⟨19, _⟩ => ⟨S_, .f32⟩
  | .hbm, ⟨20, _⟩ => ⟨S1300000, .f32⟩
  | .hbm, ⟨21, _⟩ => ⟨S_, .f32⟩
  | .hbm, ⟨22, _⟩ => ⟨S100000, .f32⟩
  | .hbm, ⟨23, _⟩ => ⟨S1300000x1, .i32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1300000, .i32⟩
  | .hbm, ⟨28, _⟩ => ⟨S1300000, .i1⟩
  | .hbm, ⟨29, _⟩ => ⟨S_, .i32⟩
  | .hbm, ⟨30, _⟩ => ⟨S1300000, .i32⟩
  | .hbm, ⟨31, _⟩ => ⟨S1300000, .i32⟩
  | .hbm, ⟨32, _⟩ => ⟨S1300000, .i32⟩
  | .hbm, ⟨33, _⟩ => ⟨S1300000x1, .i32⟩
  | .hbm, ⟨34, _⟩ => ⟨S1300000, .f32⟩
  | .hbm, ⟨35, _⟩ => ⟨S_, .i32⟩
  | .hbm, ⟨36, _⟩ => ⟨S1300000, .i32⟩
  | .hbm, ⟨37, _⟩ => ⟨S1300000, .i1⟩
  | .hbm, ⟨38, _⟩ => ⟨S_, .i32⟩
  | .hbm, ⟨39, _⟩ => ⟨S1300000, .i32⟩
  | .hbm, ⟨40, _⟩ => ⟨S1300000, .i32⟩
  | .hbm, ⟨41, _⟩ => ⟨S1300000, .i32⟩
  | .hbm, ⟨42, _⟩ => ⟨S1300000x1, .i32⟩
  | .hbm, ⟨43, _⟩ => ⟨S1300000, .f32⟩
  | .hbm, ⟨44, _⟩ => ⟨S1300000, .f32⟩
  | .hbm, ⟨45, _⟩ => ⟨S_, .i32⟩
  | .hbm, ⟨46, _⟩ => ⟨S1300000, .i32⟩
  | .hbm, ⟨47, _⟩ => ⟨S1300000, .i1⟩
  | .hbm, ⟨48, _⟩ => ⟨S_, .i32⟩
  | .hbm, ⟨49, _⟩ => ⟨S1300000, .i32⟩
  | .hbm, ⟨50, _⟩ => ⟨S1300000, .i32⟩
  | .hbm, ⟨51, _⟩ => ⟨S1300000, .i32⟩
  | .hbm, ⟨52, _⟩ => ⟨S1300000x1, .i32⟩
  | .hbm, ⟨53, _⟩ => ⟨S1300000x64, .f32⟩
  | .hbm, ⟨54, _⟩ => ⟨S1300000x1, .f32⟩
  | .hbm, ⟨55, _⟩ => ⟨S1300000x64, .f32⟩
  | .hbm, ⟨56, _⟩ => ⟨S1300000x64, .f32⟩
  | .hbm, ⟨57, _⟩ => ⟨S_, .f32⟩
  | .hbm, ⟨58, _⟩ => ⟨S100000x64, .f32⟩
  | .hbm, ⟨59, _⟩ => ⟨S1300000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S_, .f32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S64x256, .f32⟩
  | .hbm, ⟨69, _⟩ => ⟨S100000x256, .f32⟩
  | .hbm, ⟨70, _⟩ => ⟨S1x256, .f32⟩
  | .hbm, ⟨71, _⟩ => ⟨S100000x256, .f32⟩
  | .hbm, ⟨72, _⟩ => ⟨S100000x256, .f32⟩
  | .hbm, ⟨73, _⟩ => ⟨S_, .f32⟩
  | .hbm, ⟨74, _⟩ => ⟨S100000x256, .f32⟩
  | .hbm, ⟨75, _⟩ => ⟨S100000x256, .f32⟩
  | .hbm, ⟨76, _⟩ => ⟨S256x256, .f32⟩
  | .hbm, ⟨77, _⟩ => ⟨S100000x256, .f32⟩
  | .hbm, ⟨78, _⟩ => ⟨S1x256, .f32⟩
  | .hbm, ⟨79, _⟩ => ⟨S100000x256, .f32⟩
  | .hbm, ⟨80, _⟩ => ⟨S100000x256, .f32⟩
  | .hbm, ⟨81, _⟩ => ⟨S_, .f32⟩
  | .hbm, ⟨82, _⟩ => ⟨S100000x256, .f32⟩
  | .hbm, ⟨83, _⟩ => ⟨S100000x256, .f32⟩
  | .hbm, ⟨84, _⟩ => ⟨S256x1, .f32⟩
  | .hbm, ⟨85, _⟩ => ⟨S100000x1, .f32⟩
  | .hbm, ⟨86, _⟩ => ⟨S1x1, .f32⟩
  | .hbm, ⟨87, _⟩ => ⟨S100000x1, .f32⟩
  | .hbm, ⟨88, _⟩ => ⟨S100000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_call0_cst : Ref sig .tc := ⟨.hbm, 64, rfl⟩
abbrev main_call0_v0 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call1_cst : Ref sig .tc := ⟨.hbm, 73, rfl⟩
abbrev main_call1_v0 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call2_cst : Ref sig .tc := ⟨.hbm, 81, rfl⟩
abbrev main_call2_v0 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  concatenates_S1200000_S100000_S1300000_d0 : Shape.Concatenates [S1200000, S100000] S1300000 0
  transposes_S64x64_S64x64_1_0 : S64x64.Transposes [1, 0] S64x64
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S256x64_S64x256_1_0 : S256x64.Transposes [1, 0] S64x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  transposes_S256x256_S256x256_1_0 : S256x256.Transposes [1, 0] S256x256
  transposes_S1x256_S256x1_1_0 : S1x256.Transposes [1, 0] S256x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x64_S64x64_S100000x64_1_0_0_1_n_n_wf : DotDims.WF S100000x64 S64x64 S100000x64 [1] [0] [0] [1] [] []
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S100000x64_S64x256_S100000x256_1_0_0_1_n_n_wf : DotDims.WF S100000x64 S64x256 S100000x256 [1] [0] [0] [1] [] []
  dot_S100000x256_S256x256_S100000x256_1_0_0_1_n_n_wf : DotDims.WF S100000x256 S256x256 S100000x256 [1] [0] [0] [1] [] []
  dot_S100000x256_S256x1_S100000x1_1_0_0_1_n_n_wf : DotDims.WF S100000x256 S256x1 S100000x1 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S100000x64_S64x256_S100000x256_1_0_0_1_n_n : DotDims S100000x64 S64x256 S100000x256 where
  lhsContracting := [1]
  rhsContracting := [0]
  lhsNonContracting := [0]
  rhsNonContracting := [1]
  lhsBatch := []
  rhsBatch := []
  wf := dot_S100000x64_S64x256_S100000x256_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf

class Facts : Prop extends Facts₀ where

variable [Facts]
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.Head.lean ====
/-
  The network head on one node's row.

  A node's row of aggregated messages `a`, the convolution bias `cb` and the node's own features `x` enter as
  `max (a i + cb i) 0 + x i`; two dense layers with ReLU follow; the output is the last hidden row's product with one
  weight column plus one bias number. The first and the last stage are read at an index here in the two spellings
  the programs use: on a tile of rows with a one-row bias laid along every row and the product accumulated into a
  zero array, and on all rows with a bias vector broadcast twice and a plain product. The number of rows plays no part.
-/
import proofs.«132184_j16509854285899_1_alg».proof.Proof.LibDense

noncomputable section

namespace Cert.Head

open Idealize.ShloMosaic Idealize.ShloMosaic.ValueIdx Cert.LibDense

/-- The row entering the first dense layer: messages plus bias, clipped at zero, plus the node's own features. -/
def inRow {C : ℕ} (a cb x : Fin C → EReal) (i : Fin C) : EReal := max (a i + cb i) 0 + x i

/-- The head's output for one node: two dense layers with ReLU on the entering row, then one weight column and a bias. -/
def headRow {C H : ℕ} (a cb x : Fin C → EReal) (W1 : Fin C → Fin H → EReal) (b1 : Fin H → EReal)
    (W2 : Fin H → Fin H → EReal) (b2 : Fin H → EReal) (w3 : Fin H → EReal) (b3 : EReal) : EReal :=
  ∑ k : Fin H, dense (dense (inRow a cb x) W1 b1) W2 b2 k * w3 k + b3

/-- The head's output depends on its nine inputs only through their entries. -/
theorem headRow_congr {C H : ℕ} {a a' cb cb' x x' : Fin C → EReal} {W1 W1' : Fin C → Fin H → EReal} {b1 b1' : Fin H → EReal}
    {W2 W2' : Fin H → Fin H → EReal} {b2 b2' : Fin H → EReal} {w3 w3' : Fin H → EReal} {b3 b3' : EReal}
    (ha : ∀ i, a i = a' i) (hcb : ∀ i, cb i = cb' i) (hx : ∀ i, x i = x' i) (hW1 : ∀ k j, W1 k j = W1' k j)
    (hb1 : ∀ j, b1 j = b1' j) (hW2 : ∀ k j, W2 k j = W2' k j) (hb2 : ∀ j, b2 j = b2' j) (hw3 : ∀ k, w3 k = w3' k)
    (hb3 : b3 = b3') : headRow a cb x W1 b1 W2 b2 w3 b3 = headRow a' cb' x' W1' b1' W2' b2' w3' b3' := by
  rw [show a = a' from funext ha, show cb = cb' from funext hcb, show x = x' from funext hx,
    show W1 = W1' from funext fun k => funext (hW1 k), show b1 = b1' from funext hb1,
    show W2 = W2' from funext fun k => funext (hW2 k), show b2 = b2' from funext hb2, show w3 = w3' from funext hw3, hb3]

section Stages

variable {M K N : ℕ} {φ₁ φ₂ : FTy}

/-- The entering row on a tile: a one-row bias laid along every row, the maximum with a splat zero, the features added. -/
theorem kernel_inRow_apply (a x : FVec Ideal ⟨2, ![M, N]⟩ .f32) (cb : FVec Ideal ⟨2, ![1, N]⟩ .f32)
    (hb : (⟨2, ![1, N]⟩ : Shape).Broadcasts ⟨2, ![M, N]⟩) (r : Fin M) (i : Fin N) :
    addf (maximumf (addf a (broadcastTo ⟨2, ![M, N]⟩ cb hb))
        (broadcast ⟨2, ![M, N]⟩ (Scalar.ofBits (F := Ideal) .f32 0x00000000#32))) x (ix2 r i)
      = inRow (fun i => a (ix2 r i)) (fun i => cb (ix2 (0 : Fin 1) i)) (fun i => x (ix2 r i)) i := by
  show max (a (ix2 r i) + broadcastTo ⟨2, ![M, N]⟩ cb hb (ix2 r i)) (Ideal.ofBits .f32 0x00000000#32) + x (ix2 r i) = _
  rw [broadcastTo_1b_ab_apply, Ideal.ofBits_zero_f32]
  rfl

/-- The entering row on all rows: a bias vector laid along axis 1 of a one-row matrix and that row down the rows, the
    maximum with a broadcast zero, the features added. -/
theorem host_inRow_apply (a x : FVec Ideal ⟨2, ![M, N]⟩ .f32) (cb : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (i : Fin N) :
    addf (maximumf (addf a (broadcastInDim ⟨2, ![M, N]⟩ ![0, 1] h2 (broadcastInDim ⟨2, ![1, N]⟩ ![1] h1 cb)))
        (broadcastInDim ⟨2, ![M, N]⟩ ![] h0 (constant (F := Ideal) ⟨0, ![]⟩ .f32 0x00000000#32))) x (ix2 e i)
      = inRow (fun i => a (ix2 e i)) (fun i => cb (ix1 i)) (fun i => x (ix2 e i)) i := by
  have e2 := broadcastInDim_oneRow_apply h2 (broadcastInDim ⟨2, ![1, N]⟩ ![1] h1 cb) e i
  have e1 := broadcastInDim_apply ![1] h1 cb (ix2 (0 : Fin 1) i) (ix1 i) (fun a => by
    match a with
    | ⟨0, _⟩ =>
      show i.val = if N = 1 then 0 else i.val
      split
      · have := i.isLt; omega
      · rfl)
  have e0 := broadcastInDim_apply ![] h0 (constant (F := Ideal) ⟨0, ![]⟩ .f32 0x00000000#32) (ix2 e i) (fun a => a.elim0)
    (fun a => a.elim0)
  show max (a (ix2 e i) + broadcastInDim ⟨2, ![M, N]⟩ ![0, 1] h2 (broadcastInDim ⟨2, ![1, N]⟩ ![1] h1 cb) (ix2 e i))
      (broadcastInDim ⟨2, ![M, N]⟩ ![] h0 (constant (F := Ideal) ⟨0, ![]⟩ .f32 0x00000000#32) (ix2 e i)) + x (ix2 e i) = _
  rw [e2, e1, e0]
  show max _ (Ideal.ofBits .f32 0x00000000#32) + _ = _
  rw [Ideal.ofBits_zero_f32]
  rfl

/-- The last stage on a tile: the product into a zero array plus a one-row bias laid along every row, read at (r, j),
    given the input's row `r`. -/
theorem kernel_out_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    addf (matmul d prec h W (constant (F := Ideal) ⟨2, ![M, N]⟩ .f32 0x00000000#32)) (broadcastTo ⟨2, ![M, N]⟩ b hb) (ix2 r j)
      = ∑ k : Fin K, row k * W (ix2 k j) + b (ix2 (0 : Fin 1) j) := by
  subst hd
  show FloatOps.matmul (DotDims.plain M K N) prec h W (constant ⟨2, ![M, N]⟩ .f32 0x00000000#32) (ix2 r j)
      + broadcastTo ⟨2, ![M, N]⟩ b hb (ix2 r j) = _
  rw [matmul_plain_zero_apply, broadcastTo_1b_ab_apply]
  simp only [hrow]

/-- The last stage on all rows: the plain product plus a bias vector broadcast twice, read at (e, j), given the
    input's row `e`. -/
theorem host_out_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (e : Fin M) (j : Fin N)
    (row : Fin K → EReal) (hrow : ∀ k, h (ix2 e k) = row k) :
    addf (Host.dotGeneral d prec h W)
        (broadcastInDim ⟨2, ![M, N]⟩ ![0, 1] h2 (broadcastInDim ⟨2, ![1, N]⟩ ![1] h1 b)) (ix2 e j)
      = ∑ k : Fin K, row k * W (ix2 k j) + b (ix1 j) := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  show FloatOps.dotGeneral (DotDims.plain M K N) prec .single h W (ix2 e j)
      + broadcastInDim ⟨2, ![M, N]⟩ ![0, 1] h2 (broadcastInDim ⟨2, ![1, N]⟩ ![1] h1 b) (ix2 e j) = _
  rw [dotGeneral_plain_apply, e2, e1]
  simp only [hrow]

end Stages

end Cert.Head

end
-- ==== Proof.TileValue.lean ====
/-
  What the kernel's body computes on one tile of 2000 rows.

  The body's stored value, as one term of the nine input blocks, read at row `p` and lane `c` of the tile: the head's
  output for the tile's row `p`, with lane `c` of the padded last weight matrix as the weight column and lane `c` of
  the padded last bias as the bias. The narrowing of the matrix operands to bf16 changes nothing at the exact reals,
  and each product is accumulated into a zero array, so each of the three stages reads as a plain sum.
-/
import proofs.«132184_j16509854285899_1_alg».proof.Proof.Gen.KernelIdeal.Skeleton
import proofs.«132184_j16509854285899_1_alg».proof.Proof.Head

noncomputable section

namespace Cert.KernelIdeal.Tile

open Cert.KernelIdeal Cert.KernelIdeal.Gen Idealize.ShloMosaic Idealize.ShloMosaic.ValueIdx Cert.LibDense Cert.Head

/-- The tile's stored value at (p, c) is the head's output for row `p` of the tile's blocks, through lane `c` of the
    last layer's padded weights and bias. -/
theorem tile_apply (x0 x1 : Vec Ideal S2000x64 .f32) (x2 : Vec Ideal S1x64 .f32) (x3 : Vec Ideal S64x256 .f32)
    (x4 : Vec Ideal S1x256 .f32) (x5 : Vec Ideal S256x256 .f32) (x6 : Vec Ideal S1x256 .f32)
    (x7 : Vec Ideal S256x128 .f32) (x8 : Vec Ideal S1x128 .f32) (p : Fin 2000) (c : Fin 128) :
    k0_pay1 (F := Ideal) (k0_pay2 x0 x1 x2 x3 x4 x5 x6 x7) x8 (ix2 p c)
      = headRow (fun i => x0 (ix2 p i)) (fun i => x2 (ix2 (0 : Fin 1) i)) (fun i => x1 (ix2 p i))
          (fun k j => x3 (ix2 k j)) (fun j => x4 (ix2 (0 : Fin 1) j))
          (fun k j => x5 (ix2 k j)) (fun j => x6 (ix2 (0 : Fin 1) j))
          (fun k => x7 (ix2 k c)) (x8 (ix2 (0 : Fin 1) c)) := by
  unfold k0_pay1 k0_pay2
  dsimp only
  simp only [shapeCast_self]
  refine (kernel_out_apply _ rfl none _ _ x8 _ p c _ (fun k => ?_)).trans rfl
  refine (truncf_apply (s := S2000x256) (φ := .f32) (ψ := .bf16) _ _ (ix2 p k)).trans ?_
  refine kernel_layer_apply _ rfl none _ _ x6 _ p k _ (fun k' => ?_)
  refine (truncf_apply (s := S2000x256) (φ := .f32) (ψ := .bf16) _ _ (ix2 p k')).trans ?_
  refine kernel_layer_apply _ rfl none _ _ x4 _ p k' _ (fun i => ?_)
  refine (truncf_apply (s := S2000x64) (φ := .f32) (ψ := .bf16) _ _ (ix2 p i)).trans ?_
  exact kernel_inRow_apply x0 x1 x2 _ p i

end Cert.KernelIdeal.Tile

end
-- ==== Proof.KernelValue.lean ====
/-
  What the kernel program leaves in its result.

  The region runs the body once per tile of 2000 rows and writes each tile's 2000 × 128 block back to the padded
  output array; the fifty blocks tile that array, so it ends as ONE function of the arrays the region started from:
  at row `e` and lane `q`, the head's output for row `e` of the aggregated messages and of the node features, through
  lane `q` of the padded last weights and bias. The aggregated messages and the features are cut into tiles with the
  output, so the tile's row `p` is the arrays' row `2000 t + p`; the weights and biases are fetched whole at every tile.
  After the region the host keeps lane 0 of every row: the program's result.
-/
import proofs.«132184_j16509854285899_1_alg».proof.Proof.Gen.KernelIdeal.Frame
import proofs.«132184_j16509854285899_1_alg».proof.Proof.TileValue
import Idealize.ShloMosaic.Lib.Pipeline.Value
import Idealize.ShloMosaic.Lib.StableHlo.Run
import Idealize.ShloMosaic.Lib.ValueLayout

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx Cert.Head Cert.KernelIdeal.Tile
open Idealize.ShloMosaic.Pipeline (Dat Cfg Window)

variable (m : (ℓ : Loc nD τ sig) → Buf (Elt Ideal) ℓ) (ρ : Dev nD → PrngReg)

/-! ## The arrays the region starts from, each at its literal shape -/

abbrev aggA (c : Dev nD) : Vec Ideal S100000x64 .f32 := V m c main_v41
abbrev featA (c : Dev nD) : Vec Ideal S100000x64 .f32 := V m c main_arg0
abbrev cbA (c : Dev nD) : Vec Ideal S1x64 .f32 := V m c main_v42
abbrev w1A (c : Dev nD) : Vec Ideal S64x256 .f32 := V m c main_v43
abbrev b1A (c : Dev nD) : Vec Ideal S1x256 .f32 := V m c main_v44
abbrev w2A (c : Dev nD) : Vec Ideal S256x256 .f32 := V m c main_v45
abbrev b2A (c : Dev nD) : Vec Ideal S1x256 .f32 := V m c main_v46
abbrev w3A (c : Dev nD) : Vec Ideal S256x128 .f32 := V m c main_v48
abbrev b3A (c : Dev nD) : Vec Ideal S1x128 .f32 := V m c main_v50

/-- The padded output array as one function of those arrays: at (e, q) the head's output for row `e`, through lane `q`
    of the last layer's padded weights and bias. -/
def padded (c : Dev nD) : Vec Ideal S100000x128 .f32 := fun i =>
  headRow (fun k => aggA m c (ix2 (⟨(i 0).val, (i 0).isLt⟩ : Fin 100000) k)) (fun k => cbA m c (ix2 (0 : Fin 1) k))
    (fun k => featA m c (ix2 (⟨(i 0).val, (i 0).isLt⟩ : Fin 100000) k))
    (fun k j => w1A m c (ix2 k j)) (fun j => b1A m c (ix2 (0 : Fin 1) j))
    (fun k j => w2A m c (ix2 k j)) (fun j => b2A m c (ix2 (0 : Fin 1) j))
    (fun k => w3A m c (ix2 k (⟨(i 1).val, (i 1).isLt⟩ : Fin 128))) (b3A m c (ix2 (0 : Fin 1) (⟨(i 1).val, (i 1).isLt⟩ : Fin 128)))

theorem hz : (![0, 0] : Fin 2 → Nat) = fun _ => 0 := funext fun a => by fin_cases a <;> rfl

/-- The index maps over the fifty tiles: the two row-tiled inputs move with the output's tile; every other input sits
    at block (0, 0); the output's tile column is 0. -/
theorem idx_facts : ∀ t : Fin cfg0.N,
    win0_0.index t (0 : Fin 2) = win0_9.index t (0 : Fin 2) ∧ win0_0.index t (1 : Fin 2) = 0
    ∧ win0_1.index t (0 : Fin 2) = win0_9.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (1 : Fin 2) = 0 :=
  (by decide +kernel : ∀ t : Fin grid0.N, _)

/-- Every tile row of the output is some grid point's. -/
theorem idx_onto : ∀ q0 : Fin 50, ∃ t : Fin cfg0.N, win0_9.index t = ![q0.val, 0] :=
  (by decide +kernel : ∀ q0 : Fin 50, ∃ t : Fin grid0.N, win0_9.index t = ![q0.val, 0])

/-! ## Each input block is its array read where the output's block sits

Stated for an arbitrary array `A` of the window's shape: a block is a rectangle of `A`, whatever `A` holds. -/

/-- Row `p` of tile `t` of a row-tiled array (the first operand's window) is the array's row `r`, when `r` is the output block's row. -/
theorem agg_blk (A : Vec Ideal S100000x64 .f32) (t : Fin cfg0.N) (p : Fin 2000) (i : Fin 64) (r : Fin 100000)
    (hr : r.val = win0_9.index t (0 : Fin 2) * 2000 + 1 * p.val) :
    ((cfg0.win 0).blk t).view.read (Elt Ideal) A (ix2 p i) = A (ix2 r i) := by
  show A (((cfg0.win 0).blk t).view.emb (ix2 p i)) = A (ix2 r i)
  have h : ((cfg0.win 0).blk t).view.emb (ix2 p i) = (ix2 r i) := by
    funext a
    apply Fin.ext
    obtain ⟨e0, e1, -⟩ := idx_facts t
    match a with
    | ⟨0, _⟩ => show win0_0.index t (0 : Fin 2) * 2000 + 1 * p.val = r.val; rw [e0, hr]
    | ⟨1, _⟩ => show win0_0.index t (1 : Fin 2) * 64 + 1 * i.val = i.val; rw [e1]; omega
  rw [h]

/-- The same for the second operand's window. -/
theorem feat_blk (A : Vec Ideal S100000x64 .f32) (t : Fin cfg0.N) (p : Fin 2000) (i : Fin 64) (r : Fin 100000)
    (hr : r.val = win0_9.index t (0 : Fin 2) * 2000 + 1 * p.val) :
    ((cfg0.win 1).blk t).view.read (Elt Ideal) A (ix2 p i) = A (ix2 r i) := by
  show A (((cfg0.win 1).blk t).view.emb (ix2 p i)) = A (ix2 r i)
  have h : ((cfg0.win 1).blk t).view.emb (ix2 p i) = (ix2 r i) := by
    funext a
    apply Fin.ext
    obtain ⟨-, -, e0, e1, -⟩ := idx_facts t
    match a with
    | ⟨0, _⟩ => show win0_1.index t (0 : Fin 2) * 2000 + 1 * p.val = r.val; rw [e0, hr]
    | ⟨1, _⟩ => show win0_1.index t (1 : Fin 2) * 64 + 1 * i.val = i.val; rw [e1]; omega
  rw [h]

/-- The convolution bias row's window is the whole array at every tile. -/
theorem cb_blk (A : Vec Ideal S1x64 .f32) (t : Fin cfg0.N) (u : Fin 1) (i : Fin 64) :
    ((cfg0.win 2).blk t).view.read (Elt Ideal) A (ix2 u i) = A (ix2 u i) := by
  show A (((cfg0.win 2).blk t).view.emb (ix2 u i)) = A (ix2 u i)
  have h : ((cfg0.win 2).blk t).view.emb (ix2 u i) = (ix2 u i) := by
    funext a
    apply Fin.ext
    obtain ⟨-, -, -, -, e0, e1, -⟩ := idx_facts t
    match a with
    | ⟨0, _⟩ => show win0_2.index t (0 : Fin 2) * 1 + 1 * u.val = u.val; rw [e0]; omega
    | ⟨1, _⟩ => show win0_2.index t (1 : Fin 2) * 64 + 1 * i.val = i.val; rw [e1]; omega
  rw [h]

/-- The first weight matrix's window is the whole array at every tile. -/
theorem w1_blk (A : Vec Ideal S64x256 .f32) (t : Fin cfg0.N) (k : Fin 64) (j : Fin 256) :
    ((cfg0.win 3).blk t).view.read (Elt Ideal) A (ix2 k j) = A (ix2 k j) := by
  show A (((cfg0.win 3).blk t).view.emb (ix2 k j)) = A (ix2 k j)
  have h : ((cfg0.win 3).blk t).view.emb (ix2 k j) = (ix2 k j) := by
    funext a
    apply Fin.ext
    obtain ⟨-, -, -, -, -, -, e0, e1, -⟩ := idx_facts t
    match a with
    | ⟨0, _⟩ => show win0_3.index t (0 : Fin 2) * 64 + 1 * k.val = k.val; rw [e0]; omega
    | ⟨1, _⟩ => show win0_3.index t (1 : Fin 2) * 256 + 1 * j.val = j.val; rw [e1]; omega
  rw [h]

/-- The first bias row's window is the whole array at every tile. -/
theorem b1_blk (A : Vec Ideal S1x256 .f32) (t : Fin cfg0.N) (u : Fin 1) (j : Fin 256) :
    ((cfg0.win 4).blk t).view.read (Elt Ideal) A (ix2 u j) = A (ix2 u j) := by
  show A (((cfg0.win 4).blk t).view.emb (ix2 u j)) = A (ix2 u j)
  have h : ((cfg0.win 4).blk t).view.emb (ix2 u j) = (ix2 u j) := by
    funext a
    apply Fin.ext
    obtain ⟨-, -, -, -, -, -, -, -, e0, e1, -⟩ := idx_facts t
    match a with
    | ⟨0, _⟩ => show win0_4.index t (0 : Fin 2) * 1 + 1 * u.val = u.val; rw [e0]; omega
    | ⟨1, _⟩ => show win0_4.index t (1 : Fin 2) * 256 + 1 * j.val = j.val; rw [e1]; omega
  rw [h]

/-- The second weight matrix's window is the whole array at every tile. -/
theorem w2_blk (A : Vec Ideal S256x256 .f32) (t : Fin cfg0.N) (k : Fin 256) (j : Fin 256) :
    ((cfg0.win 5).blk t).view.read (Elt Ideal) A (ix2 k j) = A (ix2 k j) := by
  show A (((cfg0.win 5).blk t).view.emb (ix2 k j)) = A (ix2 k j)
  have h : ((cfg0.win 5).blk t).view.emb (ix2 k j) = (ix2 k j) := by
    funext a
    apply Fin.ext
    obtain ⟨-, -, -, -, -, -, -, -, -, -, e0, e1, -⟩ := idx_facts t
    match a with
    | ⟨0, _⟩ => show win0_5.index t (0 : Fin 2) * 256 + 1 * k.val = k.val; rw [e0]; omega
    | ⟨1, _⟩ => show win0_5.index t (1 : Fin 2) * 256 + 1 * j.val = j.val; rw [e1]; omega
  rw [h]

/-- The second bias row's window is the whole array at every tile. -/
theorem b2_blk (A : Vec Ideal S1x256 .f32) (t : Fin cfg0.N) (u : Fin 1) (j : Fin 256) :
    ((cfg0.win 6).blk t).view.read (Elt Ideal) A (ix2 u j) = A (ix2 u j) := by
  show A (((cfg0.win 6).blk t).view.emb (ix2 u j)) = A (ix2 u j)
  have h : ((cfg0.win 6).blk t).view.emb (ix2 u j) = (ix2 u j) := by
    funext a
    apply Fin.ext
    obtain ⟨-, -, -, -, -, -, -, -, -, -, -, -, e0, e1, -⟩ := idx_facts t
    match a with
    | ⟨0, _⟩ => show win0_6.index t (0 : Fin 2) * 1 + 1 * u.val = u.val; rw [e0]; omega
    | ⟨1, _⟩ => show win0_6.index t (1 : Fin 2) * 256 + 1 * j.val = j.val; rw [e1]; omega
  rw [h]

/-- The padded last weight matrix's window is the whole array at every tile. -/
theorem w3_blk (A : Vec Ideal S256x128 .f32) (t : Fin cfg0.N) (k : Fin 256) (q : Fin 128) :
    ((cfg0.win 7).blk t).view.read (Elt Ideal) A (ix2 k q) = A (ix2 k q) := by
  show A (((cfg0.win 7).blk t).view.emb (ix2 k q)) = A (ix2 k q)
  have h : ((cfg0.win 7).blk t).view.emb (ix2 k q) = (ix2 k q) := by
    funext a
    apply Fin.ext
    obtain ⟨-, -, -, -, -, -, -, -, -, -, -, -, -, -, e0, e1, -⟩ := idx_facts t
    match a with
    | ⟨0, _⟩ => show win0_7.index t (0 : Fin 2) * 256 + 1 * k.val = k.val; rw [e0]; omega
    | ⟨1, _⟩ => show win0_7.index t (1 : Fin 2) * 128 + 1 * q.val = q.val; rw [e1]; omega
  rw [h]

/-- The padded last bias row's window is the whole array at every tile. -/
theorem b3_blk (A : Vec Ideal S1x128 .f32) (t : Fin cfg0.N) (u : Fin 1) (q : Fin 128) :
    ((cfg0.win 8).blk t).view.read (Elt Ideal) A (ix2 u q) = A (ix2 u q) := by
  show A (((cfg0.win 8).blk t).view.emb (ix2 u q)) = A (ix2 u q)
  have h : ((cfg0.win 8).blk t).view.emb (ix2 u q) = (ix2 u q) := by
    funext a
    apply Fin.ext
    obtain ⟨-, -, -, -, -, -, -, -, -, -, -, -, -, -, -, -, e0, e1, -⟩ := idx_facts t
    match a with
    | ⟨0, _⟩ => show win0_8.index t (0 : Fin 2) * 1 + 1 * u.val = u.val; rw [e0]; omega
    | ⟨1, _⟩ => show win0_8.index t (1 : Fin 2) * 128 + 1 * q.val = q.val; rw [e1]; omega
  rw [h]

/-! ## From the tiles to the array -/

/-- What tile `t`'s body stores, read at (p, q), is the head's output on the tile's blocks at row `p`. -/
theorem stored_eq (c : Dev nD) (t : Fin cfg0.N) (p : Fin 2000) (q : Fin 128) :
    (cfg0.win 9).cut (grid0.coords t) (k0_pay1 (F := Ideal) (k0_pay2 (iblk m c 0 t) (iblk m c 1 t) (iblk m c 2 t) (iblk m c 3 t)
        (iblk m c 4 t) (iblk m c 5 t) (iblk m c 6 t) (iblk m c 7 t)) (iblk m c 8 t)) (ix2 p q)
      =
    headRow (fun i => (iblk m c 0 t : Vec Ideal S2000x64 .f32) (ix2 p i)) (fun i => (iblk m c 2 t : Vec Ideal S1x64 .f32) (ix2 (0 : Fin 1) i))
        (fun i => (iblk m c 1 t : Vec Ideal S2000x64 .f32) (ix2 p i))
        (fun k j => (iblk m c 3 t : Vec Ideal S64x256 .f32) (ix2 k j)) (fun j => (iblk m c 4 t : Vec Ideal S1x256 .f32) (ix2 (0 : Fin 1) j))
        (fun k j => (iblk m c 5 t : Vec Ideal S256x256 .f32) (ix2 k j)) (fun j => (iblk m c 6 t : Vec Ideal S1x256 .f32) (ix2 (0 : Fin 1) j))
        (fun k => (iblk m c 7 t : Vec Ideal S256x128 .f32) (ix2 k q)) ((iblk m c 8 t : Vec Ideal S1x128 .f32) (ix2 (0 : Fin 1) q)) := by
  show k0_pay1 (F := Ideal) (k0_pay2 (iblk m c 0 t) (iblk m c 1 t) (iblk m c 2 t) (iblk m c 3 t)
        (iblk m c 4 t) (iblk m c 5 t) (iblk m c 6 t) (iblk m c 7 t)) (iblk m c 8 t) ((cfg0.win 9).xinj (grid0.coords t) (ix2 p q)) = _
  have hx : (cfg0.win 9).xinj (grid0.coords t) (ix2 p q) = (ix2 p q : S2000x128.Idx) := rfl
  rw [hx]
  exact tile_apply (iblk m c 0 t) (iblk m c 1 t) (iblk m c 2 t) (iblk m c 3 t) (iblk m c 4 t) (iblk m c 5 t)
    (iblk m c 6 t) (iblk m c 7 t) (iblk m c 8 t) p q

/-- The head's output on tile `t`'s blocks at row `p` is `padded` where the output's block puts (p, q). -/
theorem rows_eq (c : Dev nD) (t : Fin cfg0.N) (p : Fin 2000) (q : Fin 128) :
    headRow (fun i => (iblk m c 0 t : Vec Ideal S2000x64 .f32) (ix2 p i)) (fun i => (iblk m c 2 t : Vec Ideal S1x64 .f32) (ix2 (0 : Fin 1) i))
        (fun i => (iblk m c 1 t : Vec Ideal S2000x64 .f32) (ix2 p i))
        (fun k j => (iblk m c 3 t : Vec Ideal S64x256 .f32) (ix2 k j)) (fun j => (iblk m c 4 t : Vec Ideal S1x256 .f32) (ix2 (0 : Fin 1) j))
        (fun k j => (iblk m c 5 t : Vec Ideal S256x256 .f32) (ix2 k j)) (fun j => (iblk m c 6 t : Vec Ideal S1x256 .f32) (ix2 (0 : Fin 1) j))
        (fun k => (iblk m c 7 t : Vec Ideal S256x128 .f32) (ix2 k q)) ((iblk m c 8 t : Vec Ideal S1x128 .f32) (ix2 (0 : Fin 1) q))
      = padded m c (((cfg0.win 9).blk t).view.emb (ix2 p q)) := by
  have e18 : win0_9.index t (1 : Fin 2) = 0 := (idx_facts t).2.2.2.2.2.2.2.2.2.2.2.2.2.2.2.2.2.2
  have hq : (⟨((((cfg0.win 9).blk t).view.emb (ix2 p q)) 1).val, ((((cfg0.win 9).blk t).view.emb (ix2 p q)) 1).isLt⟩ : Fin 128) = q :=
    Fin.ext (by show win0_9.index t (1 : Fin 2) * 128 + 1 * q.val = q.val; rw [e18]; omega)
  unfold padded
  rw [hq]
  exact headRow_congr
    (fun i => agg_blk (aggA m c) t p i ⟨((((cfg0.win 9).blk t).view.emb (ix2 p q)) 0).val, ((((cfg0.win 9).blk t).view.emb (ix2 p q)) 0).isLt⟩ rfl)
    (fun i => cb_blk (cbA m c) t 0 i)
    (fun i => feat_blk (featA m c) t p i ⟨((((cfg0.win 9).blk t).view.emb (ix2 p q)) 0).val, ((((cfg0.win 9).blk t).view.emb (ix2 p q)) 0).isLt⟩ rfl)
    (fun k j => w1_blk (w1A m c) t k j) (fun j => b1_blk (b1A m c) t 0 j) (fun k j => w2_blk (w2A m c) t k j)
    (fun j => b2_blk (b2A m c) t 0 j) (fun k => w3_blk (w3A m c) t k q) (b3_blk (b3A m c) t 0 q)

/-- What tile `t` writes back is block `t` of `padded`. -/
theorem flushed_eq (c : Dev nD) (t : Fin cfg0.N) :
    (dats m 0 c).flushed 9 t = ((cfg0.win 9).blk t).view.read (Elt Ideal) (padded m c) := by
  show (cfg0.win 9).cut (grid0.coords t) ((dats m 0 c).after 9 t) = _
  rw [after0_9]
  unfold out0_9
  rw [View.canon_unit_zero hz]
  simp only [View.ld_unit_zero (S := S2000x64) hz, View.ld_unit_zero (S := S1x64) hz, View.ld_unit_zero (S := S64x256) hz,
    View.ld_unit_zero (S := S1x256) hz, View.ld_unit_zero (S := S256x256) hz, View.ld_unit_zero (S := S256x128) hz,
    View.ld_unit_zero (S := S1x128) hz]
  funext j
  obtain ⟨p, q, rfl⟩ : ∃ (p : Fin 2000) (q : Fin 128), j = ix2 p q := ⟨j 0, j 1, eq_ix2 j⟩
  rw [View.read_apply, cast_eq]
  exact (stored_eq m c t p q).trans (rows_eq m c t p q)

/-- An index of the padded array is in tile `t`'s block iff each coordinate is in the block's range. -/
theorem mem_blk (t : Fin cfg0.N) (i : S100000x128.Idx) :
    i ∈ ((cfg0.win 9).blk t).view.set ↔ ∀ a : Fin 2, win0_9.index t a * S2000x128.size a ≤ (i a).val
      ∧ (i a).val < win0_9.index t a * S2000x128.size a + S2000x128.size a := by
  show i ∈ ((View.whole main_v51).slice (win0_9.rect t)).set ↔ _
  rw [View.set_slice_whole, Rect.mem_set_unit]
  exact Iff.rfl

/-- The fifty blocks tile the padded array: row `e` lies in tile `e / 2000`. -/
theorem cover (i : S100000x128.Idx) :
    ∃ t : Fin cfg0.N, (cfg0.win 9).flush t = true ∧ i ∈ ((cfg0.win 9).blk t).view.set := by
  have hi0 : (i 0).val < 100000 := (i 0).isLt
  have hi1 : (i 1).val < 128 := (i 1).isLt
  obtain ⟨t, ht⟩ := idx_onto ⟨(i 0).val / 2000, by omega⟩
  have q0 : win0_9.index t (0 : Fin 2) = (i 0).val / 2000 := congrFun ht 0
  have q1 : win0_9.index t (1 : Fin 2) = 0 := congrFun ht 1
  refine ⟨t, flush0_9 t, ?_⟩
  rw [mem_blk]
  intro a
  match a with
  | ⟨0, _⟩ =>
    show win0_9.index t (0 : Fin 2) * 2000 ≤ (i 0).val ∧ (i 0).val < win0_9.index t (0 : Fin 2) * 2000 + 2000
    omega
  | ⟨1, _⟩ =>
    show win0_9.index t (1 : Fin 2) * 128 ≤ (i 1).val ∧ (i 1).val < win0_9.index t (1 : Fin 2) * 128 + 128
    omega

/-- The padded output array after the run. -/
theorem final (c : Dev nD) : (dats m 0 c).arrAt 9 cfg0.N = padded m c :=
  (dats m 0 c).arrAt_eq_of_cover 9 (padded m c) (fun t _ => flushed_eq m c t) cover

/-! ## The program's result -/

/-- The program's result: lane 0 of every row of the padded array. -/
def result (c : Dev nD) : Vec Ideal S100000x1 .f32 :=
  extractStridedSlice S100000x1 ![0, 0] (padded m c) slices_S100000x128_S100000x1_0_0

/-- After the region the host's one operation reads the padded array, which the region left at `padded`. -/
theorem tail_eq (c : Dev nD) :
    Pipeline.afterTail₀ cfgs (dats m) 0 (V0 m) [hostOps1] c main_v52 = result m c := by
  unfold Pipeline.afterTail₀
  show StableHlo.after hostOps1 _ (Proc.devRef .tc main_v52) = _
  after_results
  unfold result
  exact congrArg (fun A : Vec Ideal S100000x128 .f32 => extractStridedSlice S100000x1 ![0, 0] A slices_S100000x128_S100000x1_0_0)
    ((Pipeline.withArrays_arr spec0 launch0.win.arr_inj c (V0 m c) (fun w => (dats m 0 c).arrAt w (cfgs 0).N) 9).trans (final m c))

/-- Every weakly fair execution of the kernel program ends with its result at `result` and its arguments unchanged. -/
theorem run : θ_run defs (onTc (τ := τ) (main (F := Ideal))) ⟨m, fun _ => 0, ρ⟩ (fun r => ∀ c : Dev nD,
      r.2.mem ((c.tc : Thread nD τ).loc main_v52) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v52 (Pipeline.mem_restRefs_of main_v52 (by decide) (by decide))).trans (tail_eq m c),
      ((h c).1 1).trans (((dats m 0 c).arrAt_in 1 rfl _).trans ((A_eq m c 1).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩) (run_main m ρ)

end Cert.KernelIdeal.KValue

end
-- ==== Proof.OperandsA.lean ====
/-
  The first dense layer's operands as the kernel's region finds them.

  Before the region the host lays the convolution bias out as a one-row matrix, transposes the first weight matrix
  and lays the first bias out as a one-row matrix. Read at an index, each is the argument array at the matching index.
-/
import proofs.«132184_j16509854285899_1_alg».proof.Proof.Gen.KernelIdeal.Frame
import Idealize.ShloMosaic.Lib.StableHlo.Run
import Idealize.ShloMosaic.Lib.ValueLayout
import Idealize.ShloMosaic.Lib.KernelVsHost

noncomputable section

namespace Cert.KernelIdeal.OperandsA

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxHeartbeats 2000000 in
/-- The convolution bias as a one-row matrix: entry (u, i) is the bias vector's entry i. -/
theorem convBias_apply (c : Dev nD) (u : Fin 1) (i : Fin 64) :
    (V m c main_v42 : Vec Ideal S1x64 .f32) (ix2 u i) = (m ((c : Thread nD τ).loc main_arg3) : Vec Ideal S64 .f32) (ix1 i) := by
  have e : (V m c main_v42 : Vec Ideal S1x64 .f32)
      = shapeCast S1x64 (m ((c : Thread nD τ).loc main_arg3) : Vec Ideal S64 .f32) shapeCasts_S64_S1x64 := by
    dsimp only [Gen.V, Gen.V0]
    simp only [Gen.hostOps0, Gen.hostOps0_1, Gen.hostOps0_2, Gen.hostOps0_3, List.flatten_cons, List.flatten_nil, List.append_nil,
      List.cons_append, List.nil_append]
    after_results <;> rfl
  rw [e]
  exact shapeCast_a_1a_apply _ _ u i

set_option maxHeartbeats 2000000 in
/-- The first weight matrix transposed: entry (k, j) is the argument's entry (j, k). -/
theorem weight1_apply (c : Dev nD) (k : Fin 64) (j : Fin 256) :
    (V m c main_v43 : Vec Ideal S64x256 .f32) (ix2 k j) = (m ((c : Thread nD τ).loc main_arg4) : Vec Ideal S256x64 .f32) (ix2 j k) := by
  have e : (V m c main_v43 : Vec Ideal S64x256 .f32)
      = transpose S64x256 [1, 0] (m ((c : Thread nD τ).loc main_arg4) : Vec Ideal S256x64 .f32) transposes_S256x64_S64x256_1_0 := by
    dsimp only [Gen.V, Gen.V0]
    simp only [Gen.hostOps0, Gen.hostOps0_1, Gen.hostOps0_2, Gen.hostOps0_3, List.flatten_cons, List.flatten_nil, List.append_nil,
      List.cons_append, List.nil_append]
    after_results <;> rfl
  rw [e]
  exact transpose_ix2_apply (a := 256) (b := 64) _ _ k j

set_option maxHeartbeats 2000000 in
/-- The first bias as a one-row matrix: entry (u, j) is the bias vector's entry j. -/
theorem bias1_apply (c : Dev nD) (u : Fin 1) (j : Fin 256) :
    (V m c main_v44 : Vec Ideal S1x256 .f32) (ix2 u j) = (m ((c : Thread nD τ).loc main_arg5) : Vec Ideal S256 .f32) (ix1 j) := by
  have e : (V m c main_v44 : Vec Ideal S1x256 .f32)
      = shapeCast S1x256 (m ((c : Thread nD τ).loc main_arg5) : Vec Ideal S256 .f32) shapeCasts_S256_S1x256 := by
    dsimp only [Gen.V, Gen.V0]
    simp only [Gen.hostOps0, Gen.hostOps0_1, Gen.hostOps0_2, Gen.hostOps0_3, List.flatten_cons, List.flatten_nil, List.append_nil,
      List.cons_append, List.nil_append]
    after_results <;> rfl
  rw [e]
  exact shapeCast_a_1a_apply _ _ u j

end Cert.KernelIdeal.OperandsA

end
-- ==== Proof.OperandsB.lean ====
/-
  The second dense layer's operands as the kernel's region finds them.

  The second weight matrix is transposed and the second bias laid out as a one-row matrix. Read at an index, each is
  the argument array at the matching index.
-/
import proofs.«132184_j16509854285899_1_alg».proof.Proof.Gen.KernelIdeal.Frame
import Idealize.ShloMosaic.Lib.StableHlo.Run
import Idealize.ShloMosaic.Lib.ValueLayout
import Idealize.ShloMosaic.Lib.KernelVsHost

noncomputable section

namespace Cert.KernelIdeal.OperandsB

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxHeartbeats 2000000 in
/-- The second weight matrix transposed: entry (k, j) is the argument's entry (j, k). -/
theorem weight2_apply (c : Dev nD) (k j : Fin 256) :
    (V m c main_v45 : Vec Ideal S256x256 .f32) (ix2 k j) = (m ((c : Thread nD τ).loc main_arg6) : Vec Ideal S256x256 .f32) (ix2 j k) := by
  have e : (V m c main_v45 : Vec Ideal S256x256 .f32)
      = transpose S256x256 [1, 0] (m ((c : Thread nD τ).loc main_arg6) : Vec Ideal S256x256 .f32) transposes_S256x256_S256x256_1_0 := by
    dsimp only [Gen.V, Gen.V0]
    simp only [Gen.hostOps0, Gen.hostOps0_1, Gen.hostOps0_2, Gen.hostOps0_3, List.flatten_cons, List.flatten_nil, List.append_nil,
      List.cons_append, List.nil_append]
    after_results <;> rfl
  rw [e]
  exact transpose_ix2_apply (a := 256) (b := 256) _ _ k j

set_option maxHeartbeats 2000000 in
/-- The second bias as a one-row matrix: entry (u, j) is the bias vector's entry j. -/
theorem bias2_apply (c : Dev nD) (u : Fin 1) (j : Fin 256) :
    (V m c main_v46 : Vec Ideal S1x256 .f32) (ix2 u j) = (m ((c : Thread nD τ).loc main_arg7) : Vec Ideal S256 .f32) (ix1 j) := by
  have e : (V m c main_v46 : Vec Ideal S1x256 .f32)
      = shapeCast S1x256 (m ((c : Thread nD τ).loc main_arg7) : Vec Ideal S256 .f32) shapeCasts_S256_S1x256 := by
    dsimp only [Gen.V, Gen.V0]
    simp only [Gen.hostOps0, Gen.hostOps0_1, Gen.hostOps0_2, Gen.hostOps0_3, List.flatten_cons, List.flatten_nil, List.append_nil,
      List.cons_append, List.nil_append]
    after_results <;> rfl
  rw [e]
  exact shapeCast_a_1a_apply _ _ u j

end Cert.KernelIdeal.OperandsB

end
-- ==== Proof.OperandsC.lean ====
/-
  The last layer's operands as the kernel's region finds them.

  The last layer's weight row is transposed into a column and padded on the right to 128 lanes, and the last bias, one
  number, is laid out as a 1 × 1 matrix and padded the same way; lane 0 of each is the argument's entry, whatever the
  padding holds.
-/
import proofs.«132184_j16509854285899_1_alg».proof.Proof.Gen.KernelIdeal.Frame
import Idealize.ShloMosaic.Lib.StableHlo.Run
import Idealize.ShloMosaic.Lib.ValueLayout
import Idealize.ShloMosaic.Lib.KernelVsHost

noncomputable section

namespace Cert.KernelIdeal.OperandsC

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxHeartbeats 2000000 in
/-- Lane 0 of the padded last weight matrix: entry (k, 0) is the weight row's entry (0, k). -/
theorem weight3_apply (c : Dev nD) (k : Fin 256) :
    (V m c main_v48 : Vec Ideal S256x128 .f32) (ix2 k (0 : Fin 128))
      = (m ((c : Thread nD τ).loc main_arg8) : Vec Ideal S1x256 .f32) (ix2 (0 : Fin 1) k) := by
  have e : (V m c main_v48 : Vec Ideal S256x128 .f32)
      = pad S256x128 ![0, 0] ![0, 127] ![0, 0]
          (transpose S256x1 [1, 0] (m ((c : Thread nD τ).loc main_arg8) : Vec Ideal S1x256 .f32) transposes_S1x256_S256x1_1_0)
          (sitofp (F := Ideal) .f32 (constantI S_ 32 0#32)) pads_S256x1_S256x128_000_01270 h_S_ := by
    dsimp only [Gen.V, Gen.V0]
    simp only [Gen.hostOps0, Gen.hostOps0_1, Gen.hostOps0_2, Gen.hostOps0_3, List.flatten_cons, List.flatten_nil, List.append_nil,
      List.cons_append, List.nil_append]
    after_results <;> rfl
  rw [e, pad_apply_of_inside _ _ _ _ _ _ _ (ix2 k (0 : Fin 128)) (ix2 k (0 : Fin 1)) (fun a => by
    match a with
    | ⟨0, _⟩ => show k.val = 0 + k.val * (0 + 1); omega
    | ⟨1, _⟩ => rfl)]
  exact transpose_ix2_apply (a := 1) (b := 256) _ _ k 0

set_option maxHeartbeats 2000000 in
/-- Lane 0 of the padded last bias: entry (0, 0) is the bias number. -/
theorem bias3_apply (c : Dev nD) (u : Fin 1) :
    (V m c main_v50 : Vec Ideal S1x128 .f32) (ix2 u (0 : Fin 128))
      = (m ((c : Thread nD τ).loc main_arg9) : Vec Ideal S1 .f32) (ix1 (0 : Fin 1)) := by
  have e : (V m c main_v50 : Vec Ideal S1x128 .f32)
      = pad S1x128 ![0, 0] ![0, 127] ![0, 0]
          (shapeCast S1x1 (m ((c : Thread nD τ).loc main_arg9) : Vec Ideal S1 .f32) shapeCasts_S1_S1x1)
          (sitofp (F := Ideal) .f32 (constantI S_ 32 0#32)) pads_S1x1_S1x128_000_01270 h_S_ := by
    dsimp only [Gen.V, Gen.V0]
    simp only [Gen.hostOps0, Gen.hostOps0_1, Gen.hostOps0_2, Gen.hostOps0_3, List.flatten_cons, List.flatten_nil, List.append_nil,
      List.cons_append, List.nil_append]
    after_results <;> rfl
  obtain rfl : u = 0 := Subsingleton.elim _ _
  rw [e, pad_apply_of_inside _ _ _ _ _ _ _ (ix2 (0 : Fin 1) (0 : Fin 128)) (ix2 (0 : Fin 1) (0 : Fin 1)) (fun a => by
    match a with
    | ⟨0, _⟩ => rfl
    | ⟨1, _⟩ => rfl)]
  exact shapeCast_a_1a_apply _ _ 0 0

end Cert.KernelIdeal.OperandsC

end
-- ==== Proof.AggValue.lean ====
/-
  The aggregated messages are one array in both programs.

  Before anything else both programs compute, by the same fifty-one host operations on the node features, the edge
  list and the convolution weights, the normalised sum of the neighbours' transformed features at every node: self
  loops appended to the edge list, the degree of every node counted by a scatter of ones, its inverse square root
  gathered at both ends of every edge, the transformed features gathered at the sources, scaled and scattered onto
  the destinations. The kernel's region finds that array as its first operand; the reference names it as a stage of
  its run. They are the same function of the same three arguments, operation for operation, so nothing of the chain
  is ever opened: the certificate only ever reads this array at an index.
-/
import proofs.«132184_j16509854285899_1_alg».proof.Proof.Gen.KernelIdeal.Frame
import proofs.«132184_j16509854285899_1_alg».proof.Proof.Gen.ReferenceIdeal.Read
import Idealize.ShloMosaic.Lib.StableHlo.Run

noncomputable section

namespace Cert.KernelIdeal.Agg

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 8000000 in
set_option maxRecDepth 8192 in
/-- The region's first operand is the reference's aggregation stage at the kernel program's own arguments. -/
theorem agg_eq (c : Dev nD) :
    V m c main_v41 = Cert.ReferenceIdeal.Read.val_main_v41 (F := Ideal) (m ((c : Thread nD τ).loc main_arg0))
      (m ((c : Thread nD τ).loc main_arg1)) (m ((c : Thread nD τ).loc main_arg2)) := by
  dsimp only [Gen.V, Gen.V0]
  simp only [Gen.hostOps0, Gen.hostOps0_1, Gen.hostOps0_2, Gen.hostOps0_3, List.flatten_cons, List.flatten_nil, List.append_nil,
    List.cons_append, List.nil_append]
  after_results_simp <;> rfl

end Cert.KernelIdeal.Agg

end
-- ==== Proof.RefValue.lean ====
/-
  What the reference computes for one node.

  The reference's result, stage by stage as the generated reading of its run names them, read at row `r`: the head's
  output for row `r` of the aggregated messages (the stage `val_main_v41`, kept as one array: it is computed by the
  same operations in both programs) and of the node features, with the weight matrices read transposed, as the
  reference's `x @ w.T` spells them, and the bias vectors as given.
-/
import proofs.«132184_j16509854285899_1_alg».proof.Proof.Gen.ReferenceIdeal.Read
import proofs.«132184_j16509854285899_1_alg».proof.Proof.Head
import Idealize.ShloMosaic.Lib.ValueLayout

noncomputable section

namespace Cert.ReferenceIdeal.RefValue

open Cert.ReferenceIdeal Cert.ReferenceIdeal.Gen Cert.ReferenceIdeal.Read Idealize.ShloMosaic Idealize.ShloMosaic.ValueIdx
open Cert.LibDense Cert.Head

/-- The reference's result at row `r` (its one column `z`) is the head's output for that row. -/
theorem ref_apply (x0 : Vec Ideal S100000x64 .f32) (x1 : IVec S2x1200000 32) (x2 : Vec Ideal S64x64 .f32)
    (x3 : Vec Ideal S64 .f32) (x4 : Vec Ideal S256x64 .f32) (x5 : Vec Ideal S256 .f32) (x6 : Vec Ideal S256x256 .f32)
    (x7 : Vec Ideal S256 .f32) (x8 : Vec Ideal S1x256 .f32) (x9 : Vec Ideal S1 .f32) (r : Fin 100000) (z : Fin 1) :
    val_main_v63 (F := Ideal) x0 x1 x2 x3 x4 x5 x6 x7 x8 x9 (ix2 r z)
      = headRow (fun i => val_main_v41 (F := Ideal) x0 x1 x2 (ix2 r i)) (fun i => x3 (ix1 i)) (fun i => x0 (ix2 r i))
          (fun k j => x4 (ix2 j k)) (fun j => x5 (ix1 j)) (fun k j => x6 (ix2 j k)) (fun j => x7 (ix1 j))
          (fun k => x8 (ix2 (0 : Fin 1) k)) (x9 (ix1 (0 : Fin 1))) := by
  have h0 : ∀ i, val_main_v46 (F := Ideal) x0 x1 x2 x3 (ix2 r i)
      = inRow (fun i => val_main_v41 (F := Ideal) x0 x1 x2 (ix2 r i)) (fun i => x3 (ix1 i)) (fun i => x0 (ix2 r i)) i := fun i => by
    unfold val_main_v46 val_main_v45 val_main_v44 val_main_v43 val_main_v42 val_main_call0_v0 val_main_call0_cst
    exact host_inRow_apply (val_main_v41 (F := Ideal) x0 x1 x2) x0 x3 _ _ _ r i
  have h1 : ∀ j, val_main_v52 (F := Ideal) x0 x1 x2 x3 x4 x5 (ix2 r j)
      = dense (inRow (fun i => val_main_v41 (F := Ideal) x0 x1 x2 (ix2 r i)) (fun i => x3 (ix1 i)) (fun i => x0 (ix2 r i)))
          (fun k j => val_main_v47 (F := Ideal) x4 (ix2 k j)) (fun j => x5 (ix1 j)) j := fun j => by
    unfold val_main_v52 val_main_v51 val_main_v50 val_main_v49 val_main_v48 val_main_call1_v0 val_main_call1_cst
    exact host_layer_apply _ rfl none _ _ x5 _ _ _ r j _ h0
  have h2 : ∀ k, val_main_v58 (F := Ideal) x0 x1 x2 x3 x4 x5 x6 x7 (ix2 r k)
      = dense (dense (inRow (fun i => val_main_v41 (F := Ideal) x0 x1 x2 (ix2 r i)) (fun i => x3 (ix1 i)) (fun i => x0 (ix2 r i)))
            (fun k j => val_main_v47 (F := Ideal) x4 (ix2 k j)) (fun j => x5 (ix1 j)))
          (fun k j => val_main_v53 (F := Ideal) x6 (ix2 k j)) (fun j => x7 (ix1 j)) k := fun k => by
    unfold val_main_v58 val_main_v57 val_main_v56 val_main_v55 val_main_v54 val_main_call2_v0 val_main_call2_cst
    exact host_layer_apply _ rfl none _ _ x7 _ _ _ r k _ h1
  unfold val_main_v63 val_main_v62 val_main_v61 val_main_v60
  refine (host_out_apply _ rfl none _ _ x9 _ _ r z _ h2).trans ?_
  obtain rfl : z = 0 := Subsingleton.elim _ _
  have t1 : ∀ (k : Fin 64) (j : Fin 256), val_main_v47 (F := Ideal) x4 (ix2 k j) = x4 (ix2 j k) :=
    fun k j => transpose_ix2_apply (a := 256) (b := 64) x4 _ k j
  have t2 : ∀ (k j : Fin 256), val_main_v53 (F := Ideal) x6 (ix2 k j) = x6 (ix2 j k) :=
    fun k j => transpose_ix2_apply (a := 256) (b := 256) x6 _ k j
  have t3 : ∀ k : Fin 256, val_main_v59 (F := Ideal) x8 (ix2 k (0 : Fin 1)) = x8 (ix2 (0 : Fin 1) k) :=
    fun k => transpose_ix2_apply (a := 1) (b := 256) x8 _ k 0
  unfold headRow
  simp only [t1, t2, t3]

end Cert.ReferenceIdeal.RefValue

end
-- ==== Proof.Bridge.lean ====
/-
  The two programs compute one function.

  The kernel program's result at node `r` is lane 0 of the padded array's row `r`: the head's output for that row of
  the aggregated messages and of the node features, through the kernel's own layout of the weights (transposed by the
  host, the last layer padded to 128 lanes). The reference's result at node `r` is the head's output for the same row
  through the weights read transposed. Operand by operand these are the same numbers: the aggregated messages are one
  array in both programs, a transposed matrix read at (k, j) is the matrix at (j, k), a bias laid out as a row reads
  the bias vector, and lane 0 of a matrix padded on the right is the matrix's own column. So the kernel program's
  result is the reference's last stage evaluated at the kernel program's own arguments.
-/
import proofs.«132184_j16509854285899_1_alg».proof.Proof.KernelValue
import proofs.«132184_j16509854285899_1_alg».proof.Proof.OperandsA
import proofs.«132184_j16509854285899_1_alg».proof.Proof.OperandsB
import proofs.«132184_j16509854285899_1_alg».proof.Proof.OperandsC
import proofs.«132184_j16509854285899_1_alg».proof.Proof.AggValue
import proofs.«132184_j16509854285899_1_alg».proof.Proof.RefValue

noncomputable section

namespace Cert.KernelIdeal.Bridge

open Cert.KernelIdeal Cert.KernelIdeal.Gen Idealize.ShloMosaic Idealize.ShloMosaic.TcCoe Idealize.SL.Sem
open Idealize.ShloMosaic.ValueIdx Cert.Head Cert.KernelIdeal.KValue

variable (m : (ℓ : Loc nD τ sig) → Buf (Elt Ideal) ℓ)

/-- The kernel program's result is the reference's last stage at the kernel program's arguments. -/
theorem result_eq (c : Dev nD) :
    result m c = Cert.ReferenceIdeal.Read.val_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  funext i
  obtain ⟨r, z, rfl⟩ : ∃ (r : Fin 100000) (z : Fin 1), i = ix2 r z := ⟨i 0, i 1, eq_ix2 i⟩
  rw [Cert.ReferenceIdeal.RefValue.ref_apply]
  unfold result
  rw [slice2_axis1_apply 0 (padded m c) _ r z (0 : Fin 128) (by omega)]
  unfold padded
  exact headRow_congr (fun i => congrFun (Cert.KernelIdeal.Agg.agg_eq m c) (ix2 r i))
    (fun i => Cert.KernelIdeal.OperandsA.convBias_apply m c 0 i)
    (fun i => congrFun (V_main_arg0 m c) (ix2 r i))
    (fun k j => Cert.KernelIdeal.OperandsA.weight1_apply m c k j)
    (fun j => Cert.KernelIdeal.OperandsA.bias1_apply m c 0 j)
    (fun k j => Cert.KernelIdeal.OperandsB.weight2_apply m c k j)
    (fun j => Cert.KernelIdeal.OperandsB.bias2_apply m c 0 j)
    (fun k => Cert.KernelIdeal.OperandsC.weight3_apply m c k)
    (Cert.KernelIdeal.OperandsC.bias3_apply m c 0)

end Cert.KernelIdeal.Bridge

end
-- ==== Proof.lean ====
/-
  A graph convolution followed by a three-layer head, one node per row, against its plain reference.

  Both programs first compute the same aggregated messages: self loops appended to the edge list, the degrees
  counted, their inverse square roots gathered at both ends of every edge, the transformed features gathered, scaled
  and summed at the destinations. From there the reference works on all 100000 rows at once: the convolution bias
  is added, the result clipped at zero, the node's own features added, and two dense layers with ReLU and one dense
  layer follow, each `h @ w.T + b`. The kernel program does the same on fifty tiles of 2000 rows: the host transposes
  the weights, lays each bias out as a row and pads the last layer to 128 lanes; on each tile the body narrows the
  matrix operands to bf16, which is the identity on the exact reals, and accumulates each product into a zero array;
  the tiles' blocks tile a 100000 × 128 array, of which the host keeps lane 0.

  On the extended reals both results at node `r` are
  `∑ k, relu (∑ j, relu (∑ i, (relu (agg r i + cb i) + x r i) · w1 j i + b1 j) · w2 k j + b2 k) · w3 0 k + b3 0`,
  the sums over the same index sets in the same order, so no law beyond re-indexing is used and the precondition is
  never opened. The kernel program's frames are the generated ones; the reference's frame is its generated run with
  the result dropped; the idealization changed no operation.
-/
import proofs.«132184_j16509854285899_1_alg».proof.Defs
import proofs.«132184_j16509854285899_1_alg».proof.Proof.Gen.Kernel
import proofs.«132184_j16509854285899_1_alg».proof.Proof.Gen.Kernel.Skeleton
import proofs.«132184_j16509854285899_1_alg».proof.Proof.Gen.Kernel.Launch
import proofs.«132184_j16509854285899_1_alg».proof.Proof.Gen.Kernel.Points
import proofs.«132184_j16509854285899_1_alg».proof.Proof.Gen.Kernel.Frame
import proofs.«132184_j16509854285899_1_alg».proof.Proof.Gen.KernelIdeal
import proofs.«132184_j16509854285899_1_alg».proof.Proof.Gen.KernelIdeal.Skeleton
import proofs.«132184_j16509854285899_1_alg».proof.Proof.Gen.KernelIdeal.Launch
import proofs.«132184_j16509854285899_1_alg».proof.Proof.Gen.KernelIdeal.Points
import proofs.«132184_j16509854285899_1_alg».proof.Proof.Gen.KernelIdeal.Frame
import proofs.«132184_j16509854285899_1_alg».proof.Proof.Gen.ReferenceIdeal
import proofs.«132184_j16509854285899_1_alg».proof.Proof.Gen.Pre_finite_inputs
import proofs.«132184_j16509854285899_1_alg».proof.Proof.Gen.ReferenceIdeal.Run
import proofs.«132184_j16509854285899_1_alg».proof.Proof.Gen.ReferenceIdeal.Read
import proofs.«132184_j16509854285899_1_alg».proof.Proof.Bridge
import Idealize.ShloMosaic.Adequacy
import Idealize.ShloMosaic.Init

noncomputable section

namespace Cert.Proof

open Idealize.ShloMosaic Idealize.SL.Sem

/-- The kernel program, word by word, runs and keeps its arguments. -/
theorem frame_kernel : Cert.frame_Kernel := fun m ρ _ => Cert.Kernel.Gen.frame m ρ

/-- So does its reading on the exact reals. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the reference's last stage of those arguments. -/
theorem algebraic : Cert.algebraic_KernelIdeal_ReferenceIdeal := by
  intro m ρ m' ρ' _ hagree
  refine ⟨fun c => Cert.ReferenceIdeal.Read.val_main_v63 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    (θ_run Cert.KernelIdeal.defs _ _).mono
      (fun _ h c => ⟨(h c).1.trans (Cert.KernelIdeal.Bridge.result_eq m c), (h c).2⟩) (Cert.KernelIdeal.KValue.run m ρ), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v63_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
